-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S512x11008 : Shape := ⟨2, ![512, 11008]⟩
abbrev S32x11008 : Shape := ⟨2, ![32, 11008]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4096x4096 .f32) (main_arg1 : IVec S512x11008 32) (main_arg2 : FVec F S32x11008 .f32) (main_arg3 : FVec F S32x11008 .f32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg3
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4096x4096 : Shape := ⟨2, ![4096, 4096]⟩
abbrev S512x11008 : Shape := ⟨2, ![512, 11008]⟩
abbrev S32x11008 : Shape := ⟨2, ![32, 11008]⟩
abbrev S11008 : Shape := ⟨1, ![11008]⟩
abbrev S4096x11008 : Shape := ⟨2, ![4096, 11008]⟩
abbrev S1024x4096 : Shape := ⟨2, ![1024, 4096]⟩
abbrev S512x256 : Shape := ⟨2, ![512, 256]⟩
abbrev S32x256 : Shape := ⟨2, ![32, 256]⟩
abbrev S256 : Shape := ⟨1, ![256]⟩
abbrev S1024x256 : Shape := ⟨2, ![1024, 256]⟩
abbrev S1024x1024 : Shape := ⟨2, ![1024, 1024]⟩
abbrev S128x256 : Shape := ⟨2, ![128, 256]⟩
abbrev S8x256 : Shape := ⟨2, ![8, 256]⟩
abbrev S1x8 : Shape := ⟨2, ![1, 8]⟩
abbrev S8 : Shape := ⟨1, ![8]⟩
abbrev S128x1x256 : Shape := ⟨3, ![128, 1, 256]⟩
abbrev S1x8x1 : Shape := ⟨3, ![1, 8, 1]⟩
abbrev S128x8x256 : Shape := ⟨3, ![128, 8, 256]⟩
abbrev S8x128x256 : Shape := ⟨3, ![8, 128, 256]⟩
abbrev S8x1x256 : Shape := ⟨3, ![8, 1, 256]⟩
abbrev S1x256 : Shape := ⟨2, ![1, 256]⟩

abbrev nBuf : Space → Nat
  | .hbm => 7
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S512x11008, .i32⟩
  | .hbm, ⟨2, _⟩ => ⟨S32x11008, .f32⟩
  | .hbm, ⟨3, _⟩ => ⟨S32x11008, .f32⟩
  | .hbm, ⟨4, _⟩ => ⟨S11008, .f32⟩
  | .hbm, ⟨5, _⟩ => ⟨S4096x4096, .bf16⟩
  | .hbm, ⟨6, _⟩ => ⟨S4096x11008, .f32⟩
  | .local _ .vmem, ⟨0, _⟩ => ⟨S1024x4096, .bf16⟩
  | .local _ .vmem, ⟨1, _⟩ => ⟨S1024x4096, .bf16⟩
  | .local _ .vmem, ⟨2, _⟩ => ⟨S512x256, .i32⟩
  | .local _ .vmem, ⟨3, _⟩ => ⟨S512x256, .i32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S256, .f32⟩
  | .local _ .vmem, ⟨9, _⟩ => ⟨S256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 43], ![false, false]⟩

def k0_mult1 : BitVec 32 :=
  let c0_i32 : BitVec 32 := 0#32
  let c1024_i32 : BitVec 32 := 1024#32
  let v4 : BitVec 32 := Scalar.muli c0_i32 c1024_i32
  v4
def k0_off1 (c0_i32 : BitVec 32) : Fin 2 → Nat :=
  let c0_1 : Index := 0#32
  let c1024_i32 : BitVec 32 := 1024#32
  let v4 : BitVec 32 := Scalar.muli c0_i32 c1024_i32
  let v5 : BitVec 32 := v4
  let v6 : Index := Scalar.indexCast v5
  ![0, v6.toNat]
def k0_mult2 : BitVec 32 :=
  let c0_i32 : BitVec 32 := 0#32
  let c128_i32 : BitVec 32 := 128#32
  let v9 : BitVec 32 := Scalar.muli c0_i32 c128_i32
  v9
def k0_off2 (c0_i32 : BitVec 32) : Fin 2 → Nat :=
  let c128_i32 : BitVec 32 := 128#32
  let v9 : BitVec 32 := Scalar.muli c0_i32 c128_i32
  let v10 : BitVec 32 := v9
  let v11 : Index := Scalar.indexCast v10
  let c0_2 : Index := 0#32
  ![v11.toNat, 0]
def k0_mult3 : BitVec 32 :=
  let c0_i32 : BitVec 32 := 0#32
  let c8_i32 : BitVec 32 := 8#32
  let v13 : BitVec 32 := Scalar.muli c0_i32 c8_i32
  v13
def k0_off3 (c0_i32 : BitVec 32) : Fin 2 → Nat :=
  let c8_i32 : BitVec 32 := 8#32
  let v13 : BitVec 32 := Scalar.muli c0_i32 c8_i32
  let v14 : BitVec 32 := v13
  let v15 : Index := Scalar.indexCast v14
  let c0_3 : Index := 0#32
  ![v15.toNat, 0]
def k0_mult4 : BitVec 32 :=
  let c1_i32 : BitVec 32 := 1#32
  let c1024_i32_10 : BitVec 32 := 1024#32
  let v47 : BitVec 32 := Scalar.muli c1_i32 c1024_i32_10
  v47
def k0_mult5 : BitVec 32 :=
  let c1_i32 : BitVec 32 := 1#32
  let c128_i32_12 : BitVec 32 := 128#32
  let v52 : BitVec 32 := Scalar.muli c1_i32 c128_i32_12
  v52
def k0_mult6 : BitVec 32 :=
  let c1_i32 : BitVec 32 := 1#32
  let c8_i32_14 : BitVec 32 := 8#32
  let v56 : BitVec 32 := Scalar.muli c1_i32 c8_i32_14
  v56
def k0_mult7 : BitVec 32 :=
  let c2_i32 : BitVec 32 := 2#32
  let c1024_i32_24 : BitVec 32 := 1024#32
  let v90 : BitVec 32 := Scalar.muli c2_i32 c1024_i32_24
  v90
def k0_mult8 : BitVec 32 :=
  let c2_i32 : BitVec 32 := 2#32
  let c128_i32_26 : BitVec 32 := 128#32
  let v95 : BitVec 32 := Scalar.muli c2_i32 c128_i32_26
  v95
def k0_mult9 : BitVec 32 :=
  let c2_i32 : BitVec 32 := 2#32
  let c8_i32_28 : BitVec 32 := 8#32
  let v99 : BitVec 32 := Scalar.muli c2_i32 c8_i32_28
  v99
def k0_mult10 : BitVec 32 :=
  let c3_i32 : BitVec 32 := 3#32
  let c1024_i32_38 : BitVec 32 := 1024#32
  let v133 : BitVec 32 := Scalar.muli c3_i32 c1024_i32_38
  v133
def k0_mult11 : BitVec 32 :=
  let c3_i32 : BitVec 32 := 3#32
  let c128_i32_40 : BitVec 32 := 128#32
  let v138 : BitVec 32 := Scalar.muli c3_i32 c128_i32_40
  v138
def k0_mult12 : BitVec 32 :=
  let c3_i32 : BitVec 32 := 3#32
  let c8_i32_42 : BitVec 32 := 8#32
  let v142 : BitVec 32 := Scalar.muli c3_i32 c8_i32_42
  v142
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S1024x1024 : 0 < S1024x1024.numel
  shapeCasts_S1024x1024_S1024x1024 : S1024x1024.ShapeCasts S1024x1024
  h_S128x256 : 0 < S128x256.numel
  h_S8x256 : 0 < S8x256.numel
  iota_S1x8_d1_w32 : S1x8.Iotas .tc 32 [1]
  shapeCasts_S1x8_S8 : S1x8.ShapeCasts S8
  shapeCasts_S128x256_S128x1x256 : S128x256.ShapeCasts S128x1x256
  shapeCasts_S8_S1x8x1 : S8.ShapeCasts S1x8x1
  broadcasts_S128x1x256_S128x8x256 : S128x1x256.Broadcasts S128x8x256
  broadcasts_S1x8x1_S128x8x256 : S1x8x1.Broadcasts S128x8x256
  shapeCasts_S128x8x256_S1024x256 : S128x8x256.ShapeCasts S1024x256
  shapeCasts_S1024x256_S8x128x256 : S1024x256.ShapeCasts S8x128x256
  shapeCasts_S8x256_S8x1x256 : S8x256.ShapeCasts S8x1x256
  broadcasts_S8x1x256_S8x128x256 : S8x1x256.Broadcasts S8x128x256
  shapeCasts_S8x128x256_S1024x256 : S8x128x256.ShapeCasts S1024x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  dot_S1024x1024_S1024x256_S1024x256_1_0_0_1_n_n_wf : DotDims.WF S1024x1024 S1024x256 S1024x256 [1] [0] [0] [1] [] []
  hrank0 : 0 < grid0.rank
  k0_mult1_dvd : 128 ∣ k0_mult1.toNat
  k0_off1_inb : ∀ (r : Fin 4), ∀ a, (k0_off1 (BitVec.ofNat 32 r.val)) a + S1024x1024.size a ≤ S1024x4096.size a
  k0_mult2_dvd : 8 ∣ k0_mult2.toNat
  k0_off2_inb : ∀ (r : Fin 4), ∀ a, (k0_off2 (BitVec.ofNat 32 r.val)) a + S128x256.size a ≤ S512x256.size a
  k0_mult3_dvd : 8 ∣ k0_mult3.toNat
  k0_off3_inb : ∀ (r : Fin 4), ∀ a, (k0_off3 (BitVec.ofNat 32 r.val)) a + S8x256.size a ≤ S32x256.size a
  k0_mult4_dvd : 128 ∣ k0_mult4.toNat
  k0_mult5_dvd : 8 ∣ k0_mult5.toNat
  k0_mult6_dvd : 8 ∣ k0_mult6.toNat
  k0_mult7_dvd : 128 ∣ k0_mult7.toNat
  k0_mult8_dvd : 8 ∣ k0_mult8.toNat
  k0_mult9_dvd : 8 ∣ k0_mult9.toNat
  k0_mult10_dvd : 128 ∣ k0_mult10.toNat
  k0_mult11_dvd : 8 ∣ k0_mult11.toNat
  k0_mult12_dvd : 8 ∣ k0_mult12.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x11008.size a
  hwx0_1 : ∀ i : grid0.Coords, EltTy.bits .i32 = 32 ∨ (Rect.block (s := S512x11008) S512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x11008.size a
  hwx0_2 : ∀ i : grid0.Coords, EltTy.bits .f32 = 32 ∨ (Rect.block (s := S32x11008) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x11008.size a
  hwx0_3 : ∀ i : grid0.Coords, EltTy.bits .f32 = 32 ∨ (Rect.block (s := S32x11008) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S11008.size a
  hwx0_4 : ∀ i : grid0.Coords, EltTy.bits .f32 = 32 ∨ (Rect.block (s := S11008) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x11008.size a
  hwx0_5 : ∀ i : grid0.Coords, EltTy.bits .f32 = 32 ∨ (Rect.block (s := S4096x11008) S1024x256.size (cc0_transform_5 i) (hinb0_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S512x11008 : Shape := ⟨2, ![512, 11008]⟩
abbrev S32x11008 : Shape := ⟨2, ![32, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x128x11008 : Shape := ⟨3, ![32, 128, 11008]⟩
abbrev S32x1x11008 : Shape := ⟨3, ![32, 1, 11008]⟩
abbrev S1x11008 : Shape := ⟨2, ![1, 11008]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S512x11008, .i32⟩
  | .hbm, ⟨2, _⟩ => ⟨S32x11008, .f32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x11008, .i32⟩
  | .hbm, ⟨10, _⟩ => ⟨S1x8x1, .i32⟩
  | .hbm, ⟨11, _⟩ => ⟨S512x8x11008, .i32⟩
  | .hbm, ⟨12, _⟩ => ⟨S512x8x11008, .i32⟩
  | .hbm, ⟨13, _⟩ => ⟨S512x8x11008, .i32⟩
  | .hbm, ⟨14, _⟩ => ⟨S_, .i32⟩
  | .hbm, ⟨15, _⟩ => ⟨S512x8x11008, .i32⟩
  | .hbm, ⟨16, _⟩ => ⟨S512x8x11008, .i32⟩
  | .hbm, ⟨17, _⟩ => ⟨S4096x11008, .i32⟩
  | .hbm, ⟨18, _⟩ => ⟨S4096x11008, .f32⟩
  | .hbm, ⟨19, _⟩ => ⟨S32x128x11008, .f32⟩
  | .hbm, ⟨20, _⟩ => ⟨S32x1x11008, .f32⟩
  | .hbm, ⟨21, _⟩ => ⟨S32x128x11008, .f32⟩
  | .hbm, ⟨22, _⟩ => ⟨S32x128x11008, .f32⟩
  | .hbm, ⟨23, _⟩ => ⟨S32x1x11008, .f32⟩
  | .hbm, ⟨24, _⟩ => ⟨S32x128x11008, .f32⟩
  | .hbm, ⟨25, _⟩ => ⟨S32x128x11008, .f32⟩
  | .hbm, ⟨26, _⟩ => ⟨S4096x11008, .f32⟩
  | .hbm, ⟨27, _⟩ => ⟨S4096x11008, .f32⟩
  | .hbm, ⟨28, _⟩ => ⟨S1x11008, .f32⟩
  | .hbm, ⟨29, _⟩ => ⟨S4096x11008, .f32⟩
  | .hbm, ⟨30, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.LibWholeBuffer.lean ====
/-
  Whole-buffer round trips. A kernel that keeps an accumulator in a scratch buffer stores to and loads from the WHOLE
  buffer each time; the symbolic run then records the buffer's contents as a list of stores, latest first, each through
  the whole-shape rectangle at zero offsets. A load of the whole buffer after such a list reads what the latest store
  wrote, however many earlier stores lie under it. (The library has the one-store case, `View.readCov_unit_zero`.)
-/
import Idealize.ShloMosaic.Lib.Pipeline.Value

noncomputable section

namespace Cert.LibWholeBuffer

open Idealize.ShloMosaic

/-- The rank-2 and rank-1 zero offsets, as the functions the whole-shape lemmas ask for. -/
theorem zero2 : (![0, 0] : Fin 2 → Nat) = fun _ => 0 := by
  funext a; match a with | ⟨0, _⟩ => rfl | ⟨1, _⟩ => rfl

theorem zero1 : (![0] : Fin 1 → Nat) = fun _ => 0 := by
  funext a; match a with | ⟨0, _⟩ => rfl

/-- A load of a whole buffer after several stores, the latest of which wrote the whole buffer, reads what that
    latest store wrote: the latest piece covers every index, and the canonical contents at a covered index are the
    first covering piece's. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  subst h
  rw [View.readCov_eq_canon_ld _ _ _ (fun y => ⟨_, List.mem_cons_self, View.mem_set_unit_zero rfl inb y⟩),
    View.canon_cons_unit_zero rfl, View.ld_unit_zero rfl]

end Cert.LibWholeBuffer

end
-- ==== Proof.Body.lean ====
/-
  What one grid point's body leaves in its output block, as one pure term of the five input blocks.

  The body zeroes an accumulator, then four times adds to it the product of a 1024-column run of the input block with the
  unpacked 1024-row run of the weight block, and finally stores the accumulator plus the bias row. Every store to and
  load from the accumulator goes through the whole buffer, so each load reads exactly what the store before it wrote:
  the nest of buffer round trips collapses to a composition of the body's arithmetic steps.
-/
import proofs.«408404_j82557861364247_2_alg».proof.Proof.Gen.KernelIdeal.Frame
import proofs.«408404_j82557861364247_2_alg».proof.Proof.LibWholeBuffer
import Idealize.ShloMosaic.Lib.Pipeline.Value

set_option maxRecDepth 16384

noncomputable section

namespace Cert.KernelIdeal.Body

open Cert.KernelIdeal Cert.KernelIdeal.Gen Cert.LibWholeBuffer
open Idealize.ShloMosaic Idealize.ShloMosaic.TcCoe Idealize.ShloMosaic.Tactic
open Idealize.SL Idealize.SL.Sem

variable {F : FTy → Type} [FloatOps F]

/-- The column run `[o, o + 1024)` of the input block, the row run `[o, o + 128)` of the packed-weight block and the
    row run `[o, o + 8)` of the scale and zero-point blocks, as rectangles. -/
abbrev colsX0 : Rect S1024x4096 := Rect.unit ![0, 0] S1024x1024.size (Rect.inb₂ (by decide) (by decide))
abbrev colsX1 : Rect S1024x4096 := Rect.unit ![0, 1024] S1024x1024.size (Rect.inb₂ (by decide) (by decide))
abbrev colsX2 : Rect S1024x4096 := Rect.unit ![0, 2048] S1024x1024.size (Rect.inb₂ (by decide) (by decide))
abbrev colsX3 : Rect S1024x4096 := Rect.unit ![0, 3072] S1024x1024.size (Rect.inb₂ (by decide) (by decide))
abbrev rowsQ0 : Rect S512x256 := Rect.unit ![0, 0] S128x256.size (Rect.inb₂ (by decide) (by decide))
abbrev rowsQ1 : Rect S512x256 := Rect.unit ![128, 0] S128x256.size (Rect.inb₂ (by decide) (by decide))
abbrev rowsQ2 : Rect S512x256 := Rect.unit ![256, 0] S128x256.size (Rect.inb₂ (by decide) (by decide))
abbrev rowsQ3 : Rect S512x256 := Rect.unit ![384, 0] S128x256.size (Rect.inb₂ (by decide) (by decide))
abbrev rowsG0 : Rect S32x256 := Rect.unit ![0, 0] S8x256.size (Rect.inb₂ (by decide) (by decide))
abbrev rowsG1 : Rect S32x256 := Rect.unit ![8, 0] S8x256.size (Rect.inb₂ (by decide) (by decide))
abbrev rowsG2 : Rect S32x256 := Rect.unit ![16, 0] S8x256.size (Rect.inb₂ (by decide) (by decide))
abbrev rowsG3 : Rect S32x256 := Rect.unit ![24, 0] S8x256.size (Rect.inb₂ (by decide) (by decide))

/-- The accumulator after the first run: zero plus the first partial product. -/
def acc1 (x0 : Vec F S1024x4096 .bf16) (x1 : Vec F S512x256 .i32) (x2 x3 : Vec F S32x256 .f32) : FVec F S1024x256 .f32 :=
  k0_pay6 (k0_pay4 (View.ld x0 colsX0)) (k0_pay5 (View.ld x1 rowsQ0) (View.ld x2 rowsG0) (View.ld x3 rowsG0)) k0_pay3

/-- After the second run. -/
def acc2 (x0 : Vec F S1024x4096 .bf16) (x1 : Vec F S512x256 .i32) (x2 x3 : Vec F S32x256 .f32) : FVec F S1024x256 .f32 :=
  k0_pay9 (k0_pay7 (View.ld x0 colsX1)) (k0_pay8 (View.ld x1 rowsQ1) (View.ld x2 rowsG1) (View.ld x3 rowsG1))
    (acc1 x0 x1 x2 x3) (constant S1024x256 .f32 0#32)

/-- After the third run. -/
def acc3 (x0 : Vec F S1024x4096 .bf16) (x1 : Vec F S512x256 .i32) (x2 x3 : Vec F S32x256 .f32) : FVec F S1024x256 .f32 :=
  k0_pay11 (acc2 x0 x1 x2 x3) (k0_pay10 (View.ld x0 colsX2) (View.ld x1 rowsQ2) (View.ld x2 rowsG2) (View.ld x3 rowsG2))

/-- After the fourth run. -/
def acc4 (x0 : Vec F S1024x4096 .bf16) (x1 : Vec F S512x256 .i32) (x2 x3 : Vec F S32x256 .f32) : FVec F S1024x256 .f32 :=
  k0_pay12 (View.ld x0 colsX3) (View.ld x1 rowsQ3) (View.ld x2 rowsG3) (View.ld x3 rowsG3) (acc3 x0 x1 x2 x3)

/-- The output block: the final accumulator plus the bias row laid along every row. -/
def outBlock (x0 : Vec F S1024x4096 .bf16) (x1 : Vec F S512x256 .i32) (x2 x3 : Vec F S32x256 .f32) (x4 : Vec F S256 .f32) :
    FVec F S1024x256 .f32 :=
  k0_pay2 (k0_pay1 (acc4 x0 x1 x2 x3)) x4

/-- What the body's run leaves in the output's staging buffer is `outBlock` of the input blocks. -/
theorem out_eq (c : Dev nD) (i : grid0.Coords) (arg2 : Memref sig .tc .vmem S1024x4096 .bf16) (harg2 : arg2.IsWhole) (arg3 : Memref sig .tc .vmem S512x256 .i32) (harg3 : arg3.IsWhole) (arg4 : Memref sig .tc .vmem S32x256 .f32) (harg4 : arg4.IsWhole) (arg5 : Memref sig .tc .vmem S32x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x256 .f32) (harg8 : arg8.IsWhole)
    (x0 : Vec F S1024x4096 .bf16) (x1 : Vec F S512x256 .i32) (x2 : Vec F S32x256 .f32) (x3 : Vec F S32x256 .f32) (x4 : Vec F S256 .f32) :
    out0_A_5 c i arg2 harg2 arg3 harg3 arg4 harg4 arg5 harg5 arg6 harg6 arg7 harg7 arg8 harg8 x0 x1 x2 x3 x4 = outBlock x0 x1 x2 x3 x4 := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  sl_unfold_words
  rw [View.canon_unit_zero zero2]
  simp only [View.readAt_eq_ld, harg2.read_unread, harg3.read_unread, harg4.read_unread, harg5.read_unread, harg6.read_unread,
    readCov_cons_whole (S := S1024x256) _ zero2, View.readCov_unit_zero (S := S1024x256) _ zero2,
    View.ld_unit_zero (S := S256) zero1]
  rfl

end Cert.KernelIdeal.Body

end
-- ==== Proof.QuantSpec.lean ====
/-
  The function both programs compute, stated once and over any number of rows and columns.

  A packed word holds eight four-bit fields; field `s` of a word `w` is `(w >> 4·s) & 15`. Row `k` of the unpacked
  weight matrix takes field `k mod 8` of packed row `k / 8`, read as a number, subtracts the zero point of group
  `k / 128` and multiplies by that group's scale. The layer's output at row `p`, column `q` is the inner product of
  row `p` of the input with column `q` of the unpacked weights, plus the bias at `q`.

  Also here: a sum over 4096 indices is the sum of its four consecutive runs of 1024, in any additive commutative
  monoid — so on the extended reals, with no finiteness needed.
-/
import Idealize.ShloMosaic.PureOps.Ideal
import Idealize.ShloMosaic.Lib.ValueIdx

noncomputable section

namespace Cert.QuantLinear

open Idealize.ShloMosaic Idealize.ShloMosaic.ValueIdx

/-- Field `s` of a packed word: shift right (arithmetically) by `4·s`, keep the low four bits. -/
def nibble (w : BitVec 32) (s : Nat) : BitVec 32 :=
  IntOp.andi (IntOp.shrsi .vector w (IntOp.muli (BitVec.ofNat 32 s) 4#32)) 15#32

/-- The unpacked weight at row `k`, column `t`: the field's value less the group's zero point, times the group's scale. -/
def weight {T : Nat} (Q : (⟨2, ![512, T]⟩ : Shape).Idx → BitVec 32) (Sc Ze : (⟨2, ![32, T]⟩ : Shape).Idx → EReal)
    (k : Fin 4096) (t : Fin T) : EReal :=
  ((((nibble (Q (ix2 (⟨k.val / 8, by omega⟩ : Fin 512) t)) (k.val % 8)).toInt : ℝ) : EReal)
      - Ze (ix2 (⟨k.val / 128, by omega⟩ : Fin 32) t)) * Sc (ix2 (⟨k.val / 128, by omega⟩ : Fin 32) t)

/-- The layer at row `p`, column `q`. -/
def linearAt {B T : Nat} (X : (⟨2, ![B, 4096]⟩ : Shape).Idx → EReal) (Q : (⟨2, ![512, T]⟩ : Shape).Idx → BitVec 32)
    (Sc Ze : (⟨2, ![32, T]⟩ : Shape).Idx → EReal) (Bi : (⟨1, ![T]⟩ : Shape).Idx → EReal) (p : Fin B) (q : Fin T) : EReal :=
  (∑ k : Fin 4096, X (ix2 p k) * weight Q Sc Ze k q) + Bi (ix1 q)

/-- The layer as an array. -/
def linear {B T : Nat} (X : (⟨2, ![B, 4096]⟩ : Shape).Idx → EReal) (Q : (⟨2, ![512, T]⟩ : Shape).Idx → BitVec 32)
    (Sc Ze : (⟨2, ![32, T]⟩ : Shape).Idx → EReal) (Bi : (⟨1, ![T]⟩ : Shape).Idx → EReal) :
    (⟨2, ![B, T]⟩ : Shape).Idx → EReal :=
  fun i => linearAt X Q Sc Ze Bi ⟨(i 0).val, idx2_lt0 i⟩ ⟨(i 1).val, idx2_lt1 i⟩

theorem linear_ix2 {B T : Nat} (X : (⟨2, ![B, 4096]⟩ : Shape).Idx → EReal) (Q : (⟨2, ![512, T]⟩ : Shape).Idx → BitVec 32)
    (Sc Ze : (⟨2, ![32, T]⟩ : Shape).Idx → EReal) (Bi : (⟨1, ![T]⟩ : Shape).Idx → EReal) (p : Fin B) (q : Fin T) :
    linear X Q Sc Ze Bi (ix2 p q) = linearAt X Q Sc Ze Bi p q := rfl

/-- The layer on a block is the block of the layer: if `Xb` is the rows of `X` from `r₀`, and `Qb`, `Scb`, `Zeb`, `Bib`
    the columns of `Q`, `Sc`, `Ze`, `Bi` from `c₀`, then entry (p, q) of the layer on the blocks is entry
    (r₀ + p, c₀ + q) of the layer on the arrays. (Rows of the output use rows of the input only; columns use columns of
    the weights, scales, zero points and bias only.) -/
theorem linearAt_of_blocks {B T B' T' : Nat} (r₀ c₀ : Nat) (hr : r₀ + B' ≤ B) (hc : c₀ + T' ≤ T)
    (X : (⟨2, ![B, 4096]⟩ : Shape).Idx → EReal) (Q : (⟨2, ![512, T]⟩ : Shape).Idx → BitVec 32)
    (Sc Ze : (⟨2, ![32, T]⟩ : Shape).Idx → EReal) (Bi : (⟨1, ![T]⟩ : Shape).Idx → EReal)
    (Xb : (⟨2, ![B', 4096]⟩ : Shape).Idx → EReal) (Qb : (⟨2, ![512, T']⟩ : Shape).Idx → BitVec 32)
    (Scb Zeb : (⟨2, ![32, T']⟩ : Shape).Idx → EReal) (Bib : (⟨1, ![T']⟩ : Shape).Idx → EReal)
    (hX : ∀ (p : Fin B') (k : Fin 4096), Xb (ix2 p k) = X (ix2 (⟨r₀ + p.val, by omega⟩ : Fin B) k))
    (hQ : ∀ (a : Fin 512) (q : Fin T'), Qb (ix2 a q) = Q (ix2 a (⟨c₀ + q.val, by omega⟩ : Fin T)))
    (hS : ∀ (g : Fin 32) (q : Fin T'), Scb (ix2 g q) = Sc (ix2 g (⟨c₀ + q.val, by omega⟩ : Fin T)))
    (hZ : ∀ (g : Fin 32) (q : Fin T'), Zeb (ix2 g q) = Ze (ix2 g (⟨c₀ + q.val, by omega⟩ : Fin T)))
    (hB : ∀ q : Fin T', Bib (ix1 q) = Bi (ix1 (⟨c₀ + q.val, by omega⟩ : Fin T)))
    (p : Fin B') (q : Fin T') :
    linearAt Xb Qb Scb Zeb Bib p q = linearAt X Q Sc Ze Bi (⟨r₀ + p.val, by omega⟩ : Fin B) (⟨c₀ + q.val, by omega⟩ : Fin T) := by
  unfold linearAt weight
  simp only [hX, hQ, hS, hZ, hB]

/-- A sum over 4096 indices, run by run: indices `0…1023`, then `1024…2047`, `2048…3071`, `3072…4095`. -/
theorem sum_four_runs {M : Type*} [AddCommMonoid M] (f : Fin 4096 → M) :
    ∑ k : Fin 4096, f k
      = ((∑ j : Fin 1024, f ⟨0 + j.val, by omega⟩ + ∑ j : Fin 1024, f ⟨1024 + j.val, by omega⟩)
          + ∑ j : Fin 1024, f ⟨2048 + j.val, by omega⟩) + ∑ j : Fin 1024, f ⟨3072 + j.val, by omega⟩ := by
  have e : ∑ k : Fin 4096, f k = ∑ p : Fin 4 × Fin 1024, f (finProdFinEquiv p) :=
    (Equiv.sum_comp (finProdFinEquiv (m := 4) (n := 1024)) f).symm
  rw [e, Fintype.sum_prod_type, Fin.sum_univ_four]
  refine congrArg₂ (· + ·) (congrArg₂ (· + ·) (congrArg₂ (· + ·) ?_ ?_) ?_) ?_ <;>
    exact Finset.sum_congr rfl fun j _ => congrArg f (Fin.ext (by simp [finProdFinEquiv]; try omega))

end Cert.QuantLinear

end
-- ==== Proof.BodyValue.lean ====
/-
  At the exact values, the block one grid point writes is the layer — inner products with the unpacked weights, plus
  bias — applied to that point's five input blocks.

  The body works the 4096 shared indices in four runs of 1024: each run loads 1024 columns of the input block, unpacks
  the matching 128 packed rows with the matching 8 groups of scales and zero points, multiplies, and adds the product
  into an accumulator that started at zero. Read at an entry, each run contributes its stretch of the inner product,
  and the four stretches in order are the whole sum.
-/
import proofs.«408404_j82557861364247_2_alg».proof.Proof.Body
import proofs.«408404_j82557861364247_2_alg».proof.Proof.QuantSpec
import Idealize.ShloMosaic.Lib.ValueIdx
import Idealize.ShloMosaic.Lib.Pipeline.Value
import Idealize.ShloMosaic.PureOps.Ideal.Laws

set_option maxRecDepth 16384

noncomputable section

namespace Cert.KernelIdeal.BodyValue

open Cert.KernelIdeal Cert.KernelIdeal.Gen Cert.KernelIdeal.Body Cert.QuantLinear
open Idealize.ShloMosaic Idealize.ShloMosaic.ValueIdx

/-! ## The body's layout operations, read at an index -/

section Layout
variable {α : Type}

/-- [1024, 256] viewed as [8, 128, 256]: entry (g, r, q) is row `128·g + r`. -/
theorem rows_as_groups (v : S1024x256.Idx → α) (h : S1024x256.ShapeCasts S8x128x256) (g : Fin 8) (r : Fin 128) (q : Fin 256) :
    shapeCast S8x128x256 v h (ix3 g r q) = v (ix2 (⟨g.val * 128 + r.val, by omega⟩ : Fin 1024) q) :=
  shapeCast_apply v h (ix3 g r q) (ix2 (⟨g.val * 128 + r.val, by omega⟩ : Fin 1024) q)
    (by rewrite [Shape.rowMajor_val_two, Shape.rowMajor_val_three]
        show (g.val * 128 + r.val) * 256 + q.val = (g.val * 128 + r.val) * 256 + q.val; rfl)

/-- [8, 128, 256] viewed as [1024, 256]: row `j` is entry (j / 128, j mod 128, ·). -/
theorem groups_as_rows (v : S8x128x256.Idx → α) (h : S8x128x256.ShapeCasts S1024x256) (j : Fin 1024) (q : Fin 256) :
    shapeCast S1024x256 v h (ix2 j q) = v (ix3 (⟨j.val / 128, by omega⟩ : Fin 8) (⟨j.val % 128, by omega⟩ : Fin 128) q) :=
  shapeCast_apply v h (ix2 j q) (ix3 (⟨j.val / 128, by omega⟩ : Fin 8) (⟨j.val % 128, by omega⟩ : Fin 128) q)
    (by rewrite [Shape.rowMajor_val_three, Shape.rowMajor_val_two]
        show (j.val / 128 * 128 + j.val % 128) * 256 + q.val = j.val * 256 + q.val; omega)

/-- [128, 8, 256] viewed as [1024, 256]: row `j` is entry (j / 8, j mod 8, ·). -/
theorem fields_as_rows (v : S128x8x256.Idx → α) (h : S128x8x256.ShapeCasts S1024x256) (j : Fin 1024) (q : Fin 256) :
    shapeCast S1024x256 v h (ix2 j q) = v (ix3 (⟨j.val / 8, by omega⟩ : Fin 128) (⟨j.val % 8, by omega⟩ : Fin 8) q) :=
  shapeCast_apply v h (ix2 j q) (ix3 (⟨j.val / 8, by omega⟩ : Fin 128) (⟨j.val % 8, by omega⟩ : Fin 8) q)
    (by rewrite [Shape.rowMajor_val_three, Shape.rowMajor_val_two]
        show (j.val / 8 * 8 + j.val % 8) * 256 + q.val = j.val * 256 + q.val; omega)

/-- A per-group row [8, 256] laid over the 128 rows of its group. -/
theorem group_row_over_rows (v : S8x256.Idx → α) (h1 : S8x256.ShapeCasts S8x1x256) (hb : S8x1x256.Broadcasts S8x128x256)
    (g : Fin 8) (r : Fin 128) (q : Fin 256) :
    broadcastTo S8x128x256 (shapeCast S8x1x256 v h1) hb (ix3 g r q) = v (ix2 g q) := by
  rw [broadcastTo_apply (shapeCast S8x1x256 v h1) hb (ix3 g r q) (ix3 g (0 : Fin 1) q) (fun a => by
    match a with
    | ⟨0, _⟩ => rfl
    | ⟨1, _⟩ => rfl
    | ⟨2, _⟩ => rfl)]
  exact shapeCast_apply v h1 (ix3 g (0 : Fin 1) q) (ix2 g q)
    (by rewrite [Shape.rowMajor_val_two, Shape.rowMajor_val_three]
        show g.val * 256 + q.val = (g.val * 1 + 0) * 256 + q.val; omega)

/-- A packed row [128, 256] laid over its eight fields. -/
theorem word_over_fields (v : S128x256.Idx → α) (h1 : S128x256.ShapeCasts S128x1x256) (hb : S128x1x256.Broadcasts S128x8x256)
    (a : Fin 128) (s : Fin 8) (q : Fin 256) :
    broadcastTo S128x8x256 (shapeCast S128x1x256 v h1) hb (ix3 a s q) = v (ix2 a q) := by
  rw [broadcastTo_apply (shapeCast S128x1x256 v h1) hb (ix3 a s q) (ix3 a (0 : Fin 1) q) (fun d => by
    match d with
    | ⟨0, _⟩ => rfl
    | ⟨1, _⟩ => rfl
    | ⟨2, _⟩ => rfl)]
  exact shapeCast_apply v h1 (ix3 a (0 : Fin 1) q) (ix2 a q)
    (by rewrite [Shape.rowMajor_val_two, Shape.rowMajor_val_three]
        show a.val * 256 + q.val = (a.val * 1 + 0) * 256 + q.val; omega)

/-- The eight shift amounts [8] laid over every packed row and column. -/
theorem amounts_over_words (v : S8.Idx → α) (h1 : S8.ShapeCasts S1x8x1) (hb : S1x8x1.Broadcasts S128x8x256)
    (a : Fin 128) (s : Fin 8) (q : Fin 256) :
    broadcastTo S128x8x256 (shapeCast S1x8x1 v h1) hb (ix3 a s q) = v (ix1 s) := by
  rw [broadcastTo_apply (shapeCast S1x8x1 v h1) hb (ix3 a s q) (ix3 (0 : Fin 1) s (0 : Fin 1)) (fun d => by
    match d with
    | ⟨0, _⟩ => rfl
    | ⟨1, _⟩ => rfl
    | ⟨2, _⟩ => rfl)]
  exact shapeCast_apply v h1 (ix3 (0 : Fin 1) s (0 : Fin 1)) (ix1 s)
    (by rewrite [Shape.rowMajor_val_one, Shape.rowMajor_val_three]
        show s.val = (0 * 8 + s.val) * 1 + 0; omega)

/-- A one-row [1, 8] array as a vector [8]. -/
theorem one_row_as_vector (v : S1x8.Idx → α) (h : S1x8.ShapeCasts S8) (s : Fin 8) :
    shapeCast S8 v h (ix1 s) = v (ix2 (0 : Fin 1) s) :=
  shapeCast_apply v h (ix1 s) (ix2 (0 : Fin 1) s)
    (by rewrite [Shape.rowMajor_val_two, Shape.rowMajor_val_one]
        show 0 * 8 + s.val = s.val; omega)

/-- A vector [256] laid along each of 1024 rows. -/
theorem vector_over_rows (v : S256.Idx → α) (h1 : S256.ShapeCasts S1x256) (hb : S1x256.Broadcasts S1024x256)
    (p : Fin 1024) (q : Fin 256) :
    broadcastTo S1024x256 (shapeCast S1x256 v h1) hb (ix2 p q) = v (ix1 q) := by
  rw [broadcastTo_apply (shapeCast S1x256 v h1) hb (ix2 p q) (ix2 (0 : Fin 1) q) (fun d => by
    match d with
    | ⟨0, _⟩ => rfl
    | ⟨1, _⟩ => rfl)]
  exact shapeCast_apply v h1 (ix2 (0 : Fin 1) q) (ix1 q)
    (by rewrite [Shape.rowMajor_val_one, Shape.rowMajor_val_two]
        show q.val = 0 * 256 + q.val; omega)

end Layout

/-! ## The unpacked weight block, at an entry -/

/-- One 1024-row run of unpacked weights from its 128 packed rows and 8 groups: at row `j` of the run, column `q`,
    field `j mod 8` of packed row `j / 8`, less the zero point of group `j / 128`, times that group's scale. -/
theorem unpack_apply (v12 : IVec S128x256 32) (v16 v18 : FVec Ideal S8x256 .f32) (j : Fin 1024) (q : Fin 256) :
    k0_pay5 (F := Ideal) v12 v16 v18 (ix2 j q)
      = ((((nibble (v12 (ix2 (⟨j.val / 8, by omega⟩ : Fin 128) q)) (j.val % 8)).toInt : ℝ) : EReal)
          - v18 (ix2 (⟨j.val / 128, by omega⟩ : Fin 8) q)) * v16 (ix2 (⟨j.val / 128, by omega⟩ : Fin 8) q) := by
  have hj := j.isLt
  have e : (⟨(⟨j.val / 128, by omega⟩ : Fin 8).val * 128 + (⟨j.val % 128, by omega⟩ : Fin 128).val, by
      show j.val / 128 * 128 + j.val % 128 < 1024; omega⟩ : Fin 1024) = j :=
    Fin.ext (by show j.val / 128 * 128 + j.val % 128 = j.val; omega)
  unfold k0_pay5
  dsimp only
  rw [truncf_apply, groups_as_rows, mulf_apply, subf_apply, group_row_over_rows, group_row_over_rows, rows_as_groups, e,
    sitofp_apply, fields_as_rows]
  simp only [andi, shrsi, broadcast]
  rw [word_over_fields, amounts_over_words]
  simp only [muli, broadcast]
  rw [one_row_as_vector, iota_single_apply]
  rfl

/-! ## One partial product, at an entry -/

theorem lhs_axis0 (i : S1024x256.Idx) (k : dot_S1024x1024_S1024x256_S1024x256_1_0_0_1_n_n.contr.Idx) :
    (dot_S1024x1024_S1024x256_S1024x256_1_0_0_1_n_n.lhsIdx i k 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
theorem lhs_axis1 (i : S1024x256.Idx) (k : dot_S1024x1024_S1024x256_S1024x256_1_0_0_1_n_n.contr.Idx) :
    (dot_S1024x1024_S1024x256_S1024x256_1_0_0_1_n_n.lhsIdx i k 1).val = (k ⟨0, by decide⟩).val :=
  dot_S1024x1024_S1024x256_S1024x256_1_0_0_1_n_n.lhsIdx_val_of_single rfl i k
theorem rhs_axis0 (i : S1024x256.Idx) (k : dot_S1024x1024_S1024x256_S1024x256_1_0_0_1_n_n.contr.Idx) :
    (dot_S1024x1024_S1024x256_S1024x256_1_0_0_1_n_n.rhsIdx i k 0).val = (k ⟨0, by decide⟩).val :=
  dot_S1024x1024_S1024x256_S1024x256_1_0_0_1_n_n.rhsIdx_val_of_single rfl i k
theorem rhs_axis1 (i : S1024x256.Idx) (k : dot_S1024x1024_S1024x256_S1024x256_1_0_0_1_n_n.contr.Idx) :
    (dot_S1024x1024_S1024x256_S1024x256_1_0_0_1_n_n.rhsIdx i k 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- A [1024, 1024] × [1024, 256] product into a zero accumulator, at (p, q): the sum over the 1024 shared indices. -/
theorem partial_product_apply (X : FVec Ideal S1024x1024 .bf16) (W : FVec Ideal S1024x256 .bf16) (p : Fin 1024) (q : Fin 256) :
    matmul dot_S1024x1024_S1024x256_S1024x256_1_0_0_1_n_n none X W (constant S1024x256 .f32 0x00000000#32) (ix2 p q)
      = ∑ j : Fin 1024, X (ix2 p j) * W (ix2 j q) := by
  show FloatOps.matmul dot_S1024x1024_S1024x256_S1024x256_1_0_0_1_n_n none X W (constant S1024x256 .f32 0x00000000#32) (ix2 p q) = _
  rw [Ideal.matmul_constant_zero_apply,
    ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p q)
      ((ValueIdx.contrEquiv1 dot_S1024x1024_S1024x256_S1024x256_1_0_0_1_n_n 1024 rfl rfl).symm k) = ix2 p k :=
    funext fun a => Fin.ext (by
      match a with
      | ⟨0, _⟩ => exact lhs_axis0 _ _
      | ⟨1, _⟩ => exact (lhs_axis1 _ _).trans hk)
  have er : dot_S1024x1024_S1024x256_S1024x256_1_0_0_1_n_n.rhsIdx (ix2 p q)
      ((ValueIdx.contrEquiv1 dot_S1024x1024_S1024x256_S1024x256_1_0_0_1_n_n 1024 rfl rfl).symm k) = ix2 k q :=
    funext fun a => Fin.ext (by
      match a with
      | ⟨0, _⟩ => exact (rhs_axis0 _ _).trans hk
      | ⟨1, _⟩ => exact rhs_axis1 _ _)
  rw [el, er]

/-! ## The four runs: what each load reads, and each run's term of the whole sum -/

/-- A load of the column run starting at `o` of the input block reads column `o + j`. -/
theorem cols_apply (x0 : Vec Ideal S1024x4096 .bf16) (o : Nat) (h : ∀ a, ![0, o] a + S1024x1024.size a ≤ S1024x4096.size a)
    (ho : o + 1024 ≤ 4096) (p j : Fin 1024) :
    View.ld x0 (Rect.unit ![0, o] S1024x1024.size h) (ix2 p j) = x0 (ix2 p (⟨o + j.val, by omega⟩ : Fin 4096)) := by
  show x0 ((Rect.unit (s := S1024x4096) ![0, o] S1024x1024.size h).idx (ix2 p j)) = _
  refine congrArg x0 (funext fun a => Fin.ext ?_)
  match a with
  | ⟨0, _⟩ => show 0 + 1 * p.val = p.val; omega
  | ⟨1, _⟩ => show o + 1 * j.val = o + j.val; omega

/-- A load of the row run starting at `o` of the packed block reads row `o + a`. -/
theorem packed_rows_apply (x1 : Vec Ideal S512x256 .i32) (o : Nat) (h : ∀ a, ![o, 0] a + S128x256.size a ≤ S512x256.size a)
    (ho : o + 128 ≤ 512) (a : Fin 128) (q : Fin 256) :
    View.ld x1 (Rect.unit ![o, 0] S128x256.size h) (ix2 a q) = x1 (ix2 (⟨o + a.val, by omega⟩ : Fin 512) q) := by
  show x1 ((Rect.unit (s := S512x256) ![o, 0] S128x256.size h).idx (ix2 a q)) = _
  refine congrArg x1 (funext fun d => Fin.ext ?_)
  match d with
  | ⟨0, _⟩ => show o + 1 * a.val = o + a.val; omega
  | ⟨1, _⟩ => show 0 + 1 * q.val = q.val; omega

/-- A load of the row run starting at `o` of a per-group block reads row `o + g`. -/
theorem group_rows_apply (x : Vec Ideal S32x256 .f32) (o : Nat) (h : ∀ a, ![o, 0] a + S8x256.size a ≤ S32x256.size a)
    (ho : o + 8 ≤ 32) (g : Fin 8) (q : Fin 256) :
    View.ld x (Rect.unit ![o, 0] S8x256.size h) (ix2 g q) = x (ix2 (⟨o + g.val, by omega⟩ : Fin 32) q) := by
  show x ((Rect.unit (s := S32x256) ![o, 0] S8x256.size h).idx (ix2 g q)) = _
  refine congrArg x (funext fun d => Fin.ext ?_)
  match d with
  | ⟨0, _⟩ => show o + 1 * g.val = o + g.val; omega
  | ⟨1, _⟩ => show 0 + 1 * q.val = q.val; omega

/-- The run of the product over the shared indices `o … o + 1023` (`o` a multiple of 1024), at (p, q), is that stretch
    of the whole inner product: its input columns start at `o`, its packed rows at `o / 8`, its groups at `o / 128`. -/
theorem run_apply (x0 : Vec Ideal S1024x4096 .bf16) (x1 : Vec Ideal S512x256 .i32) (x2 x3 : Vec Ideal S32x256 .f32)
    (X : FVec Ideal S1024x1024 .bf16) (Qc : IVec S128x256 32) (Sc Zc : FVec Ideal S8x256 .f32)
    (o oq og : Nat) (hq : o = 8 * oq) (hg : o = 128 * og) (ho : o + 1024 ≤ 4096)
    (hX : ∀ (p j : Fin 1024), X (ix2 p j) = x0 (ix2 p (⟨o + j.val, by omega⟩ : Fin 4096)))
    (hQ : ∀ (a : Fin 128) (q : Fin 256), Qc (ix2 a q) = x1 (ix2 (⟨oq + a.val, by omega⟩ : Fin 512) q))
    (hS : ∀ (g : Fin 8) (q : Fin 256), Sc (ix2 g q) = x2 (ix2 (⟨og + g.val, by omega⟩ : Fin 32) q))
    (hZ : ∀ (g : Fin 8) (q : Fin 256), Zc (ix2 g q) = x3 (ix2 (⟨og + g.val, by omega⟩ : Fin 32) q))
    (p : Fin 1024) (q : Fin 256) :
    matmul dot_S1024x1024_S1024x256_S1024x256_1_0_0_1_n_n none X (k0_pay5 (F := Ideal) Qc Sc Zc)
        (constant S1024x256 .f32 0x00000000#32) (ix2 p q)
      = ∑ j : Fin 1024, x0 (ix2 p (⟨o + j.val, by omega⟩ : Fin 4096)) * weight x1 x2 x3 (⟨o + j.val, by omega⟩ : Fin 4096) q := by
  rw [partial_product_apply]
  refine Finset.sum_congr rfl fun j _ => ?_
  have hj := j.isLt
  rw [unpack_apply, hX, hQ, hS, hZ]
  unfold weight
  have e1 : (⟨oq + (⟨j.val / 8, by omega⟩ : Fin 128).val, by show oq + j.val / 8 < 512; omega⟩ : Fin 512)
      = ⟨(⟨o + j.val, by omega⟩ : Fin 4096).val / 8, by show (o + j.val) / 8 < 512; omega⟩ :=
    Fin.ext (by show oq + j.val / 8 = (o + j.val) / 8; omega)
  have e2 : (⟨og + (⟨j.val / 128, by omega⟩ : Fin 8).val, by show og + j.val / 128 < 32; omega⟩ : Fin 32)
      = ⟨(⟨o + j.val, by omega⟩ : Fin 4096).val / 128, by show (o + j.val) / 128 < 32; omega⟩ :=
    Fin.ext (by show og + j.val / 128 = (o + j.val) / 128; omega)
  have e3 : j.val % 8 = (⟨o + j.val, by omega⟩ : Fin 4096).val % 8 := by show j.val % 8 = (o + j.val) % 8; omega
  rw [e1, e2, e3]

/-! ## The payloads' shapes -/

section Shapes
variable {F : FTy → Type} [FloatOps F]

/-- The second run unpacks its weights by the same term as the first, and takes its input run the same way. -/
theorem unpack_second (a : Vec F S128x256 .i32) (b c : Vec F S8x256 .f32) : k0_pay8 a b c = k0_pay5 a b c := rfl
theorem input_second (v : Vec F S1024x1024 .bf16) : k0_pay7 v = k0_pay4 v := rfl

/-- Each accumulator update is "what was there, plus the run's product into zero". -/
theorem update_first (v8 : FVec F S1024x1024 .bf16) (v40 : FVec F S1024x256 .bf16) (v41 : Vec F S1024x256 .f32) :
    k0_pay6 v8 v40 v41 = shapeCast S1024x256
      (addf v41 (matmul dot_S1024x1024_S1024x256_S1024x256_1_0_0_1_n_n none v8 v40 (constant S1024x256 .f32 0x00000000#32)))
      shapeCasts_S1024x256_S1024x256 := rfl
theorem update_second (v51 : FVec F S1024x1024 .bf16) (v83 : FVec F S1024x256 .bf16) (v84 : Vec F S1024x256 .f32)
    (z : FVec F S1024x256 .f32) :
    k0_pay9 v51 v83 v84 z = shapeCast S1024x256
      (addf v84 (matmul dot_S1024x1024_S1024x256_S1024x256_1_0_0_1_n_n none v51 v83 z)) shapeCasts_S1024x256_S1024x256 := rfl
theorem product_third (v93 : Vec F S1024x1024 .bf16) (v98 : Vec F S128x256 .i32) (v102 v104 : Vec F S8x256 .f32) :
    k0_pay10 v93 v98 v102 v104 = matmul dot_S1024x1024_S1024x256_S1024x256_1_0_0_1_n_n none (k0_pay4 v93)
      (k0_pay5 v98 v102 v104) (constant S1024x256 .f32 0x00000000#32) := rfl
theorem update_third (v127 : Vec F S1024x256 .f32) (v128 : FVec F S1024x256 .f32) :
    k0_pay11 v127 v128 = shapeCast S1024x256 (addf v127 v128) shapeCasts_S1024x256_S1024x256 := rfl
theorem update_fourth (v136 : Vec F S1024x1024 .bf16) (v141 : Vec F S128x256 .i32) (v145 v147 : Vec F S8x256 .f32)
    (v170 : Vec F S1024x256 .f32) :
    k0_pay12 v136 v141 v145 v147 v170 = addf v170 (matmul dot_S1024x1024_S1024x256_S1024x256_1_0_0_1_n_n none (k0_pay4 v136)
      (k0_pay5 v141 v145 v147) (constant S1024x256 .f32 0x00000000#32)) := rfl

end Shapes

/-- The accumulator starts at zero. -/
theorem start_apply (i : S1024x256.Idx) : k0_pay3 (F := Ideal) i = 0 := by
  unfold k0_pay3
  rw [shapeCast_self]
  exact Ideal.ofBits_zero_f32

/-- The input run as the product takes it (a same-shape cast of the load) reads the load. -/
theorem input_run_apply (x0 : Vec Ideal S1024x4096 .bf16) (o : Nat)
    (h : ∀ a, ![0, o] a + S1024x1024.size a ≤ S1024x4096.size a) (ho : o + 1024 ≤ 4096) (p j : Fin 1024) :
    k0_pay4 (F := Ideal) (View.ld x0 (Rect.unit ![0, o] S1024x1024.size h)) (ix2 p j)
      = x0 (ix2 p (⟨o + j.val, by omega⟩ : Fin 4096)) := by
  unfold k0_pay4
  dsimp only
  rw [shapeCast_self]
  exact cols_apply x0 o h ho p j

/-! ## The output block is the layer on the blocks -/

/-- The accumulator after the four runs, at (p, q): the four stretches of the inner product, added in order. -/
theorem acc4_apply (x0 : Vec Ideal S1024x4096 .bf16) (x1 : Vec Ideal S512x256 .i32) (x2 x3 : Vec Ideal S32x256 .f32)
    (p : Fin 1024) (q : Fin 256) :
    acc4 (F := Ideal) x0 x1 x2 x3 (ix2 p q) = ∑ k : Fin 4096, x0 (ix2 p k) * weight x1 x2 x3 k q := by
  rw [sum_four_runs]
  unfold acc4
  rw [update_fourth, addf_apply,
    run_apply x0 x1 x2 x3 (k0_pay4 (View.ld x0 colsX3)) (View.ld x1 rowsQ3) (View.ld x2 rowsG3) (View.ld x3 rowsG3)
      3072 384 24 rfl rfl (by omega)
      (fun p j => input_run_apply x0 3072 _ (by omega) p j) (fun a q => packed_rows_apply x1 384 _ (by omega) a q)
      (fun g q => group_rows_apply x2 24 _ (by omega) g q) (fun g q => group_rows_apply x3 24 _ (by omega) g q)]
  unfold acc3
  rw [update_third, shapeCast_self, addf_apply, product_third,
    run_apply x0 x1 x2 x3 (k0_pay4 (View.ld x0 colsX2)) (View.ld x1 rowsQ2) (View.ld x2 rowsG2) (View.ld x3 rowsG2)
      2048 256 16 rfl rfl (by omega)
      (fun p j => input_run_apply x0 2048 _ (by omega) p j) (fun a q => packed_rows_apply x1 256 _ (by omega) a q)
      (fun g q => group_rows_apply x2 16 _ (by omega) g q) (fun g q => group_rows_apply x3 16 _ (by omega) g q)]
  unfold acc2
  rw [update_second, shapeCast_self, addf_apply, input_second, unpack_second,
    run_apply x0 x1 x2 x3 (k0_pay4 (View.ld x0 colsX1)) (View.ld x1 rowsQ1) (View.ld x2 rowsG1) (View.ld x3 rowsG1)
      1024 128 8 rfl rfl (by omega)
      (fun p j => input_run_apply x0 1024 _ (by omega) p j) (fun a q => packed_rows_apply x1 128 _ (by omega) a q)
      (fun g q => group_rows_apply x2 8 _ (by omega) g q) (fun g q => group_rows_apply x3 8 _ (by omega) g q)]
  unfold acc1
  rw [update_first, shapeCast_self, addf_apply, start_apply, zero_add,
    run_apply x0 x1 x2 x3 (k0_pay4 (View.ld x0 colsX0)) (View.ld x1 rowsQ0) (View.ld x2 rowsG0) (View.ld x3 rowsG0)
      0 0 0 rfl rfl (by omega)
      (fun p j => input_run_apply x0 0 _ (by omega) p j) (fun a q => packed_rows_apply x1 0 _ (by omega) a q)
      (fun g q => group_rows_apply x2 0 _ (by omega) g q) (fun g q => group_rows_apply x3 0 _ (by omega) g q)]

/-- What the body leaves in its output block is the layer applied to the five input blocks. -/
theorem outBlock_eq (x0 : Vec Ideal S1024x4096 .bf16) (x1 : Vec Ideal S512x256 .i32) (x2 x3 : Vec Ideal S32x256 .f32)
    (x4 : Vec Ideal S256 .f32) :
    outBlock (F := Ideal) x0 x1 x2 x3 x4 = linear x0 x1 x2 x3 x4 := by
  funext i
  obtain ⟨p, q, rfl⟩ : ∃ (p : Fin 1024) (q : Fin 256), i = ix2 p q := ⟨i 0, i 1, eq_ix2 i⟩
  rw [linear_ix2]
  unfold outBlock linearAt k0_pay2 k0_pay1
  dsimp only
  rw [addf_apply, vector_over_rows, shapeCast_self, acc4_apply]

end Cert.KernelIdeal.BodyValue

end
-- ==== Proof.ArrayValue.lean ====
/-
  From blocks to the array: after the run the output array holds the layer of the argument arrays, everywhere.

  The grid is 4 × 43. At point (a, b) the input block is rows `1024·a …` of the input (all 4096 columns), the weight,
  scale and zero-point blocks are columns `256·b …` of their arrays (all rows), the bias block is entries `256·b …`,
  and the output block is rows `1024·a …`, columns `256·b …` of the output. Since a row of the layer's output uses only
  that row of the input, and a column only that column of the weights, scales, zero points and bias, the layer on the
  blocks is the block of the layer on the arrays. Every output index (r, t) lies in the block of the point
  (r / 1024, t / 256), so the blocks cover the array.
-/
import proofs.«408404_j82557861364247_2_alg».proof.Proof.Gen.KernelIdeal.Value
import proofs.«408404_j82557861364247_2_alg».proof.Proof.BodyValue
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.Body Cert.KernelIdeal.BodyValue Cert.QuantLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds, and the blocks' places in them -/

/-- The five arrays as the region finds them: the input (already narrowed on the host), the packed weights, the scales,
    the zero points, the bias. -/
abbrev arrX (c : Dev nD) : Vec Ideal S4096x4096 .bf16 := V m c main_v0
abbrev arrQ (c : Dev nD) : Vec Ideal S512x11008 .i32 := V m c main_arg1
abbrev arrS (c : Dev nD) : Vec Ideal S32x11008 .f32 := V m c main_arg2
abbrev arrZ (c : Dev nD) : Vec Ideal S32x11008 .f32 := V m c main_arg3
abbrev arrB (c : Dev nD) : Vec Ideal S11008 .f32 := V m c main_arg4

/-- The layer of those arrays: what the output array is to end holding. -/
def layer (c : Dev nD) : S4096x11008.Idx → EReal := linear (arrX m c) (arrQ m c) (arrS m c) (arrZ m c) (arrB m c)

/-- How the windows' block indices move with the output's, over the 172 grid points: the input follows the output's row
    block, the weights, scales, zero points and bias its column block; the other coordinate of each stays 0. -/
theorem block_indices : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 1) = win0_5.index t (1 : Fin 2)
    ∧ win0_5.index t (0 : Fin 2) ≤ 3 ∧ win0_5.index t (1 : Fin 2) ≤ 42 :=
  (by decide +kernel : ∀ t : Fin grid0.N, _)

/-- Every (row block, column block) pair is some grid point's. -/
theorem every_block : ∀ (a : Fin 4) (b : Fin 43), ∃ t : Fin cfg0.N, win0_5.index t = ![a.val, b.val] :=
  (by decide +kernel : ∀ (a : Fin 4) (b : Fin 43), ∃ t : Fin grid0.N, win0_5.index t = ![a.val, b.val])

/-- The first output row and column of point `t`'s block. -/
def row₀ (t : Fin cfg0.N) : Nat := win0_5.index t (0 : Fin 2) * 1024
def col₀ (t : Fin cfg0.N) : Nat := win0_5.index t (1 : Fin 2) * 256

theorem row₀_le (t : Fin cfg0.N) : row₀ t + 1024 ≤ 4096 := by
  have := (block_indices t).2.2.2.2.2.2.2.2.2.1; unfold row₀; omega
theorem col₀_le (t : Fin cfg0.N) : col₀ t + 256 ≤ 11008 := by
  have := (block_indices t).2.2.2.2.2.2.2.2.2.2; unfold col₀; omega

/-! ## Each input block is its array read from the block's first row or column -/

theorem input_block (c : Dev nD) (t : Fin cfg0.N) (p : Fin 1024) (k : Fin 4096) :
    (iblk m c 0 t : Vec Ideal S1024x4096 .bf16) (ix2 p k)
      = arrX m c (ix2 (⟨row₀ t + p.val, by have := row₀_le t; omega⟩ : Fin 4096) k) := by
  obtain ⟨e0, e1, -⟩ := block_indices t
  show V m c main_v0 (((cfg0.win 0).blk t).view.emb (ix2 p k)) = V m c main_v0 _
  refine congrArg (V m c main_v0) (funext fun a => Fin.ext ?_)
  match a with
  | ⟨0, _⟩ => show win0_0.index t (0 : Fin 2) * 1024 + 1 * p.val = row₀ t + p.val; unfold row₀; omega
  | ⟨1, _⟩ => show win0_0.index t (1 : Fin 2) * 4096 + 1 * k.val = k.val; omega

theorem packed_block (c : Dev nD) (t : Fin cfg0.N) (a : Fin 512) (q : Fin 256) :
    (iblk m c 1 t : Vec Ideal S512x256 .i32) (ix2 a q)
      = arrQ m c (ix2 a (⟨col₀ t + q.val, by have := col₀_le t; omega⟩ : Fin 11008)) := by
  obtain ⟨-, -, e0, e1, -⟩ := block_indices t
  show V m c main_arg1 (((cfg0.win 1).blk t).view.emb (ix2 a q)) = V m c main_arg1 _
  refine congrArg (V m c main_arg1) (funext fun d => Fin.ext ?_)
  match d with
  | ⟨0, _⟩ => show win0_1.index t (0 : Fin 2) * 512 + 1 * a.val = a.val; omega
  | ⟨1, _⟩ => show win0_1.index t (1 : Fin 2) * 256 + 1 * q.val = col₀ t + q.val; unfold col₀; omega

theorem scale_block (c : Dev nD) (t : Fin cfg0.N) (g : Fin 32) (q : Fin 256) :
    (iblk m c 2 t : Vec Ideal S32x256 .f32) (ix2 g q)
      = arrS m c (ix2 g (⟨col₀ t + q.val, by have := col₀_le t; omega⟩ : Fin 11008)) := by
  obtain ⟨-, -, -, -, e0, e1, -⟩ := block_indices t
  show V m c main_arg2 (((cfg0.win 2).blk t).view.emb (ix2 g q)) = V m c main_arg2 _
  refine congrArg (V m c main_arg2) (funext fun d => Fin.ext ?_)
  match d with
  | ⟨0, _⟩ => show win0_2.index t (0 : Fin 2) * 32 + 1 * g.val = g.val; omega
  | ⟨1, _⟩ => show win0_2.index t (1 : Fin 2) * 256 + 1 * q.val = col₀ t + q.val; unfold col₀; omega

theorem zero_block (c : Dev nD) (t : Fin cfg0.N) (g : Fin 32) (q : Fin 256) :
    (iblk m c 3 t : Vec Ideal S32x256 .f32) (ix2 g q)
      = arrZ m c (ix2 g (⟨col₀ t + q.val, by have := col₀_le t; omega⟩ : Fin 11008)) := by
  obtain ⟨-, -, -, -, -, -, e0, e1, -⟩ := block_indices t
  show V m c main_arg3 (((cfg0.win 3).blk t).view.emb (ix2 g q)) = V m c main_arg3 _
  refine congrArg (V m c main_arg3) (funext fun d => Fin.ext ?_)
  match d with
  | ⟨0, _⟩ => show win0_3.index t (0 : Fin 2) * 32 + 1 * g.val = g.val; omega
  | ⟨1, _⟩ => show win0_3.index t (1 : Fin 2) * 256 + 1 * q.val = col₀ t + q.val; unfold col₀; omega

theorem bias_block (c : Dev nD) (t : Fin cfg0.N) (q : Fin 256) :
    (iblk m c 4 t : Vec Ideal S256 .f32) (ix1 q)
      = arrB m c (ix1 (⟨col₀ t + q.val, by have := col₀_le t; omega⟩ : Fin 11008)) := by
  obtain ⟨-, -, -, -, -, -, -, -, e0, -⟩ := block_indices t
  show V m c main_arg4 (((cfg0.win 4).blk t).view.emb (ix1 q)) = V m c main_arg4 _
  refine congrArg (V m c main_arg4) (funext fun d => Fin.ext ?_)
  match d with
  | ⟨0, _⟩ => show win0_4.index t (0 : Fin 1) * 256 + 1 * q.val = col₀ t + q.val; unfold col₀; omega

/-! ## What each point writes back, and the whole array -/

/-- Point `t` writes back block `t` of the layer of the arrays. -/
theorem block_written (c : Dev nD) (t : Fin cfg0.N) :
    (dats m 0 c).flushed 5 t = ((cfg0.win 5).blk t).view.read (Elt Ideal) (layer m c) := by
  rw [Cert.KernelIdeal.Value.flushed5_A, out_eq, outBlock_eq]
  funext y
  obtain ⟨p, q, rfl⟩ : ∃ (p : Fin 1024) (q : Fin 256), y = ix2 p q := ⟨y 0, y 1, eq_ix2 y⟩
  have he : ((cfg0.win 5).blk t).view.emb (ix2 p q)
      = ix2 (⟨row₀ t + p.val, by have := row₀_le t; omega⟩ : Fin 4096) (⟨col₀ t + q.val, by have := col₀_le t; omega⟩ : Fin 11008) := by
    funext a
    apply Fin.ext
    match a with
    | ⟨0, _⟩ => show win0_5.index t (0 : Fin 2) * 1024 + 1 * p.val = row₀ t + p.val; unfold row₀; omega
    | ⟨1, _⟩ => show win0_5.index t (1 : Fin 2) * 256 + 1 * q.val = col₀ t + q.val; unfold col₀; omega
  show linear (iblk m c 0 t : Vec Ideal S1024x4096 .bf16) (iblk m c 1 t : Vec Ideal S512x256 .i32)
      (iblk m c 2 t : Vec Ideal S32x256 .f32) (iblk m c 3 t : Vec Ideal S32x256 .f32) (iblk m c 4 t : Vec Ideal S256 .f32) (ix2 p q)
    = layer m c (((cfg0.win 5).blk t).view.emb (ix2 p q))
  rw [he]
  unfold layer
  rw [linear_ix2, linear_ix2]
  exact linearAt_of_blocks (row₀ t) (col₀ t) (row₀_le t) (col₀_le t) (arrX m c) (arrQ m c) (arrS m c) (arrZ m c) (arrB m c)
    _ _ _ _ _ (input_block m c t) (packed_block m c t) (scale_block m c t) (zero_block m c t) (bias_block m c t) p q

/-- An index is in point `t`'s output block iff each coordinate is within the block's stretch on its axis. -/
theorem mem_block (t : Fin cfg0.N) (i : S4096x11008.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v1).slice (win0_5.rect t)).set ↔ _
  rw [View.set_slice_whole, Rect.mem_set_unit]
  exact Iff.rfl

/-- Every output index (r, t) is in the block of the point whose row block is `r / 1024` and column block `t / 256`. -/
theorem covered (i : S4096x11008.Idx) :
    ∃ t : Fin cfg0.N, (cfg0.win 5).flush t = true ∧ i ∈ ((cfg0.win 5).blk t).view.set := by
  have h0 : (i 0).val < 4096 := (i 0).isLt
  have h1 : (i 1).val < 11008 := (i 1).isLt
  obtain ⟨t, ht⟩ := every_block ⟨(i 0).val / 1024, by omega⟩ ⟨(i 1).val / 256, by omega⟩
  have q0 : win0_5.index t (0 : Fin 2) = (i 0).val / 1024 := congrFun ht 0
  have q1 : win0_5.index t (1 : Fin 2) = (i 1).val / 256 := congrFun ht 1
  refine ⟨t, flush0_5 t, ?_⟩
  rw [mem_block]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- After the run the output array is the layer of the arrays the region found. -/
theorem array_eq (c : Dev nD) : (dats m 0 c).arrAt 5 cfg0.N = layer m c :=
  (dats m 0 c).arrAt_eq_of_cover 5 (layer m c) (fun t _ => block_written m c t) covered

/-! ## In terms of the program's arguments -/

/-- The host narrows the input to bf16 before the region; at the exact values that changes nothing. -/
theorem arrX_eq (c : Dev nD) : (arrX m c : S4096x4096.Idx → EReal) = m ((c : Thread nD τ).loc main_arg0) := by
  dsimp only [arrX, Gen.V, Gen.hostOps0]
  after_results
  rfl

/-- The kernel's run, with the result named: the layer of the argument arrays; the arguments unchanged. -/
theorem run : θ_run defs (onTc (τ := τ) (main (F := Ideal))) ⟨m, fun _ => 0, ρ⟩ fun r => ∀ c : Dev nD,
      r.2.mem ((c : Thread nD τ).loc main_v1)
        = linear (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((array_eq m c).trans (by
      unfold layer
      rw [arrX_eq]
      show linear _ (V m c main_arg1) (V m c main_arg2) (V m c main_arg3) (V m c main_arg4) = _
      rw [V_main_arg1, V_main_arg2, V_main_arg3, V_main_arg4])), (h c).2⟩)
    (Cert.KernelIdeal.Value.run_blocks m ρ)

end Cert.KernelIdeal.ArrayValue

end
-- ==== Proof.RefLinear.lean ====
/-
  The reference computes `linear`: read one operation at a time, its weight matrix at row `k`, column `t` is field
  `k mod 8` of packed row `k / 8` less the zero point of group `k / 128`, times that group's scale — the row index
  going through two reshapes, [512, 8, T] → [4096, T] → [32, 128, T] → [4096, T], which are the divisions and
  remainders by 8 and by 128 — and its result is the plain inner product over all 4096 rows plus the bias.
-/
import proofs.«408404_j82557861364247_2_alg».proof.Proof.Gen.ReferenceIdeal.Read
import proofs.«408404_j82557861364247_2_alg».proof.Proof.QuantSpec
import Idealize.ShloMosaic.Lib.KernelVsHost

noncomputable section

namespace Cert.ReferenceIdeal.RefValue

open Cert.ReferenceIdeal Cert.ReferenceIdeal.Read Cert.QuantLinear
open Idealize.ShloMosaic Idealize.ShloMosaic.ValueIdx

/-! ## Where each reshape and broadcast sends an index -/

/-- [32, 128, T] → [4096, T]: row `k` is row `k mod 128` of group `k / 128`. -/
theorem rows_to_groups (k : Fin 4096) (t : Fin 11008) :
    idx_main_v19 (ix2 k t) = ix3 (⟨k.val / 128, by omega⟩ : Fin 32) (⟨k.val % 128, by omega⟩ : Fin 128) t := by
  have hk := k.isLt; have ht := t.isLt
  funext a
  match a with
  | ⟨0, _⟩ => exact Fin.ext (by show (k.val * 11008 + t.val) / 1409024 = k.val / 128; omega)
  | ⟨1, _⟩ => exact Fin.ext (by show (k.val * 11008 + t.val) / 11008 % 128 = k.val % 128; omega)
  | ⟨2, _⟩ => exact Fin.ext (by show (k.val * 11008 + t.val) % 11008 = t.val; omega)

/-- [4096, T] → [32, 128, T], read backwards: row `r` of group `g` is row `128·g + r`. -/
theorem groups_to_rows (g : Fin 32) (r : Fin 128) (t : Fin 11008) :
    idx_main_v12 (ix3 g r t) = ix2 (⟨g.val * 128 + r.val, by omega⟩ : Fin 4096) t := by
  have hg := g.isLt; have hr := r.isLt; have ht := t.isLt
  funext a
  match a with
  | ⟨0, _⟩ => exact Fin.ext (by show ((g.val * 128 + r.val) * 11008 + t.val) / 11008 = g.val * 128 + r.val; omega)
  | ⟨1, _⟩ => exact Fin.ext (by show ((g.val * 128 + r.val) * 11008 + t.val) % 11008 = t.val; omega)

/-- [4096, T] → [32, 128, T] → [4096, T] there and back is the identity on indices. -/
theorem regroup (k : Fin 4096) (t : Fin 11008) : idx_main_v12 (idx_main_v19 (ix2 k t)) = ix2 k t := by
  have hk := k.isLt
  rw [rows_to_groups, groups_to_rows]
  exact congrArg (fun r : Fin 4096 => ix2 r t) (Fin.ext (by show k.val / 128 * 128 + k.val % 128 = k.val; omega))

/-- [512, 8, T] → [4096, T]: row `k` is field `k mod 8` of packed row `k / 8`. -/
theorem rows_to_fields (k : Fin 4096) (t : Fin 11008) :
    idx_main_v10 (ix2 k t) = ix3 (⟨k.val / 8, by omega⟩ : Fin 512) (⟨k.val % 8, by omega⟩ : Fin 8) t := by
  have hk := k.isLt; have ht := t.isLt
  funext a
  match a with
  | ⟨0, _⟩ => exact Fin.ext (by show (k.val * 11008 + t.val) / 88064 = k.val / 8; omega)
  | ⟨1, _⟩ => exact Fin.ext (by show (k.val * 11008 + t.val) / 11008 % 8 = k.val % 8; omega)
  | ⟨2, _⟩ => exact Fin.ext (by show (k.val * 11008 + t.val) % 11008 = t.val; omega)

/-- The packed word under entry (a, s, t) of the [512, 8, T] array is word (a, t). -/
theorem word_of_field (a : Fin 512) (s : Fin 8) (t : Fin 11008) :
    idx_main_v3 (idx_main_v5 (ix3 a s t)) = ix2 a t := by
  funext d; match d with | ⟨0, _⟩ => rfl | ⟨1, _⟩ => rfl

/-- The shift amount under entry (a, s, t) is entry `s` of the eight amounts. -/
theorem shift_of_field (a : Fin 512) (s : Fin 8) (t : Fin 11008) :
    idx_main_v4 (idx_main_v6 (ix3 a s t)) = ix1 s := by
  funext d; match d with | ⟨0, _⟩ => rfl

/-- The zero point under entry (g, r, t) of the [32, 128, T] array is entry (g, t). -/
theorem zero_of_group (g : Fin 32) (r : Fin 128) (t : Fin 11008) :
    idx_main_v13 (idx_main_v14 (ix3 g r t)) = ix2 g t := by
  funext d; match d with | ⟨0, _⟩ => rfl | ⟨1, _⟩ => rfl

/-- The scale likewise. -/
theorem scale_of_group (g : Fin 32) (r : Fin 128) (t : Fin 11008) :
    idx_main_v16 (idx_main_v17 (ix3 g r t)) = ix2 g t := by
  funext d; match d with | ⟨0, _⟩ => rfl | ⟨1, _⟩ => rfl

/-! ## The weight matrix and the result -/

/-- The reference's unpacked weight matrix, at row `k`, column `t`. -/
theorem unpacked_apply (x1 : S512x11008.Idx → BitVec 32) (x2 x3 : S32x11008.Idx → EReal) (k : Fin 4096) (t : Fin 11008) :
    val_main_v19 (F := Ideal) x1 x2 x3 (ix2 k t) = weight x1 x2 x3 k t := by
  have hk := k.isLt
  rw [val_main_v19_apply, val_main_v18_apply, val_main_v15_apply, val_main_v12_apply, regroup, rows_to_groups,
    val_main_v11_apply, val_main_v10_apply, rows_to_fields, val_main_v9_apply, val_main_v7_apply, val_main_v5_apply,
    val_main_v3_apply, word_of_field, val_main_v6_apply, val_main_v4_apply, shift_of_field, val_main_v2_apply,
    val_main_v0_apply, val_main_v1_apply, val_main_c_apply, val_main_v8_apply, val_main_c_0_apply, val_main_v14_apply,
    val_main_v13_apply, zero_of_group, val_main_v17_apply, val_main_v16_apply, scale_of_group,
    shrsi_unit .host .vector]
  rfl

/-- The reference's result is `linear` of its arguments: the inner product over all 4096 rows of the unpacked weights,
    plus the bias. -/
theorem result_eq (x0 : S4096x4096.Idx → EReal) (x1 : S512x11008.Idx → BitVec 32) (x2 x3 : S32x11008.Idx → EReal)
    (x4 : S11008.Idx → EReal) :
    val_main_v23 (F := Ideal) x0 x1 x2 x3 x4 = linear x0 x1 x2 x3 x4 := by
  funext i
  obtain ⟨p, q, rfl⟩ : ∃ (p : Fin 4096) (q : Fin 11008), i = ix2 p q := ⟨i 0, i 1, eq_ix2 i⟩
  rw [linear_ix2, val_main_v23_apply, val_main_v20_apply, val_main_v22_apply, val_main_v21_apply, Ideal.addf_def]
  unfold linearAt
  refine congrArg₂ (· + ·) (Finset.sum_congr rfl fun k _ => ?_) (congrArg x4 ?_)
  · have hl : lidx_main_v20 (ix2 p q) k = ix2 p k := by
      funext d; match d with | ⟨0, _⟩ => rfl | ⟨1, _⟩ => rfl
    have hr : ridx_main_v20 (ix2 p q) k = ix2 k q := by
      funext d; match d with | ⟨0, _⟩ => rfl | ⟨1, _⟩ => rfl
    rw [hl, hr, unpacked_apply]
  · funext d; match d with | ⟨0, _⟩ => rfl

end Cert.ReferenceIdeal.RefValue

end
-- ==== Proof.lean ====
/-
  A linear layer with 4-bit packed weights: out = x · W + bias, where row `k` of `W` is field `k mod 8` of packed row
  `k / 8` (a 32-bit word holds eight fields), less the zero point of group `k / 128`, times that group's scale.

  The kernel works a 4 × 43 grid of [1024, 256] output blocks. For each it runs through the 4096 shared indices in four
  runs of 1024, unpacking the matching rows of weights and adding the run's product into an accumulator that started
  at zero, and adds the bias at the end; its input is narrowed to bf16 on the host beforehand and its unpacked weights
  in the body. The reference unpacks the whole [4096, 11008] matrix and takes one product.

  Read at the exact values a change of float format is the identity, so both results are, entry by entry,
  `Σ_k x[p, k] · W[k, q] + bias[q]` on the extended reals (`QuantLinear.linear`): the kernel's four partial sums in order
  are that sum split into its four consecutive runs, which needs only that addition is associative and commutative —
  no finiteness, so the precondition is never opened. The ideal pass rewrote nothing, so the kernel's idealization is its
  own text and `preserves` has nothing to state.

  Proof/QuantSpec.lean states the layer and the two laws used (a sum by runs; the layer on a block is the block of the
  layer). Proof/RefLinear.lean reads the reference's operations to it. Proof/Body.lean collapses the body's accumulator
  round trips to one term of the input blocks, Proof/BodyValue.lean reads that term at an entry, and
  Proof/ArrayValue.lean places the blocks in the array. The three frames are the generated ones.
-/
import proofs.«408404_j82557861364247_2_alg».proof.Defs
import proofs.«408404_j82557861364247_2_alg».proof.Proof.Gen.Kernel
import proofs.«408404_j82557861364247_2_alg».proof.Proof.Gen.Kernel.Skeleton
import proofs.«408404_j82557861364247_2_alg».proof.Proof.Gen.Kernel.Launch
import proofs.«408404_j82557861364247_2_alg».proof.Proof.Gen.Kernel.Points
import proofs.«408404_j82557861364247_2_alg».proof.Proof.Gen.Kernel.Frame
import proofs.«408404_j82557861364247_2_alg».proof.Proof.Gen.KernelIdeal
import proofs.«408404_j82557861364247_2_alg».proof.Proof.Gen.KernelIdeal.Skeleton
import proofs.«408404_j82557861364247_2_alg».proof.Proof.Gen.KernelIdeal.Launch
import proofs.«408404_j82557861364247_2_alg».proof.Proof.Gen.KernelIdeal.Points
import proofs.«408404_j82557861364247_2_alg».proof.Proof.Gen.KernelIdeal.Frame
import proofs.«408404_j82557861364247_2_alg».proof.Proof.Gen.ReferenceIdeal
import proofs.«408404_j82557861364247_2_alg».proof.Proof.Gen.Pre_finite_inputs
import proofs.«408404_j82557861364247_2_alg».proof.Proof.Gen.KernelIdeal.Value
import proofs.«408404_j82557861364247_2_alg».proof.Proof.Gen.ReferenceIdeal.Run
import proofs.«408404_j82557861364247_2_alg».proof.Proof.Gen.ReferenceIdeal.Read
import proofs.«408404_j82557861364247_2_alg».proof.Proof.ArrayValue
import proofs.«408404_j82557861364247_2_alg».proof.Proof.RefLinear
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading at the exact values. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments, both programs end with the layer of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v23_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
